-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S65536x16 : Shape := ⟨2, ![65536, 16]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S65536x16 : S_.BroadcastsInDim S65536x16 (![] : Fin 0 → Fin S65536x16.rank)
  reducesTo_S65536x16_S_d0_1 : S65536x16.ReducesTo [0, 1] S_

variable [Facts]

def fn {F : FTy → Type} [FloatOps F] (main_arg0 : FVec F S2048x16 .f32) (main_arg1 : FVec F S65536x16 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S65536x16 .f32 := Host.absf main_arg1
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_c_1 : IVec S_ 1 := constantI S_ 1 1#1
  let main_v7 : IVec S_ 1 := (fun x v => Host.reduce IntOp.andi x v reducesTo_S65536x16_S_d0_1 h_S_) main_v6 main_c_1
  let main_v8 : IVec S_ 1 := andi main_v3 main_v7
  main_v8
-- ==== Kernel.lean ====
abbrev S2048x16 : Shape := ⟨2, ![2048, 16]⟩
abbrev S65536x16 : Shape := ⟨2, ![65536, 16]⟩
abbrev S2048x1 : Shape := ⟨2, ![2048, 1]⟩
abbrev S1024x16 : Shape := ⟨2, ![1024, 16]⟩
abbrev S1024x1 : Shape := ⟨2, ![1024, 1]⟩
abbrev S1024 : Shape := ⟨1, ![1024]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2048x16, .f32⟩
  | .hbm, ⟨1, _⟩ => ⟨S65536x16, .f32⟩
  | .hbm, ⟨2, _⟩ => ⟨S2048x1, .f32⟩
  | .hbm, ⟨3, _⟩ => ⟨S2048, .f32⟩
  | .local _ .vmem, ⟨0, _⟩ => ⟨S1024x16, .f32⟩
  | .local _ .vmem, ⟨1, _⟩ => ⟨S1024x16, .f32⟩
  | .local _ .vmem, ⟨2, _⟩ => ⟨S2048x16, .f32⟩
  | .local _ .vmem, ⟨3, _⟩ => ⟨S2048x16, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x16_S1024x16_0_0 : ∀ a, (![0, 0] : Fin 2 → Nat) a + S1024x16.size a ≤ S1024x16.size a
  h_S1024x16 : 0 < S1024x16.numel
  inb_S2048x16_S2048x16_0_0 : ∀ a, (![0, 0] : Fin 2 → Nat) a + S2048x16.size a ≤ S2048x16.size a
  h_S2048x16 : 0 < S2048x16.numel
  reduces_S1024x16_S1024 : S1024x16.Reduces [1] S1024
  shapeCasts_S1024_S1024x1 : S1024.ShapeCasts S1024x1
  reduces_S2048x16_S2048 : S2048x16.Reduces [1] S2048
  shapeCasts_S2048_S1x2048 : S2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S2048x1_S2048 : S2048x1.ShapeCasts S2048
  dot_S1024x16_S2048x16_S1024x2048_1_1_0_0_n_n_wf : DotDims.WF S1024x16 S2048x16 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S2048x16.size a
  hwx0_0 : ∀ i : grid0.Coords, EltTy.bits .f32 = 32 ∨ (Rect.block (s := S2048x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S65536x16.size a
  hwx0_1 : ∀ i : grid0.Coords, EltTy.bits .f32 = 32 ∨ (Rect.block (s := S65536x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .f32 = 32 ∨ (Rect.block (s := S2048x1) S1024x1.size (cc0_transform_2 i) (hinb0_2 i)).WholeWords (EltTy.packing .f32)

variable [Facts₀]

def dot_S1024x16_S2048x16_S1024x2048_1_1_0_0_n_n : DotDims S1024x16 S2048x16 S1024x2048 where
  lhsContracting := [1]
  rhsContracting := [1]
  lhsNonContracting := [0]
  rhsNonContracting := [0]
  lhsBatch := []
  rhsBatch := []
  wf := dot_S1024x16_S2048x16_S1024x2048_1_1_0_0_n_n_wf

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x16 : Shape := ⟨2, ![2048, 16]⟩
abbrev S65536x16 : Shape := ⟨2, ![65536, 16]⟩
abbrev S_ : Shape := ⟨0, ![]⟩
abbrev S2048 : Shape := ⟨1, ![2048]⟩
abbrev S2048x1 : Shape := ⟨2, ![2048, 1]⟩
abbrev S65536 : Shape := ⟨1, ![65536]⟩
abbrev S1x65536 : Shape := ⟨2, ![1, 65536]⟩
abbrev S2048x65536 : Shape := ⟨2, ![2048, 65536]⟩
abbrev S16x65536 : Shape := ⟨2, ![16, 65536]⟩

abbrev nBuf : Space → Nat
  | .hbm => 51
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S65536x16, .f32⟩
  | .hbm, ⟨2, _⟩ => ⟨S2048x16, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S65536x16, .f32⟩
  | .hbm, ⟨7, _⟩ => ⟨S_, .f32⟩
  | .hbm, ⟨8, _⟩ => ⟨S65536, .f32⟩
  | .hbm, ⟨9, _⟩ => ⟨S1x65536, .f32⟩
  | .hbm, ⟨10, _⟩ => ⟨S2048x65536, .f32⟩
  | .hbm, ⟨11, _⟩ => ⟨S2048x65536, .f32⟩
  | .hbm, ⟨12, _⟩ => ⟨S2048x65536, .f32⟩
  | .hbm, ⟨13, _⟩ => ⟨S16x65536, .f32⟩
  | .hbm, ⟨14, _⟩ => ⟨S2048x65536, .f32⟩
  | .hbm, ⟨15, _⟩ => ⟨S_, .f32⟩
  | .hbm, ⟨16, _⟩ => ⟨S2048x65536, .f32⟩
  | .hbm, ⟨17, _⟩ => ⟨S2048x65536, .f32⟩
  | .hbm, ⟨18, _⟩ => ⟨S2048x65536, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .i1⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S2048, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_call1_v0 : Ref sig .tc := ⟨.hbm, 48, rfl⟩
abbrev main_call1_v1 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  reducesTo_S2048x16_S2048_d1 : S2048x16.ReducesTo [1] S2048
  h_S_ : 0 < S_.numel
  bcast_S2048_S2048x1_0 : S2048.BroadcastsInDim S2048x1 (![0] : Fin 1 → Fin S2048x1.rank)
  reducesTo_S65536x16_S65536_d1 : S65536x16.ReducesTo [1] S65536
  bcast_S65536_S1x65536_1 : S65536.BroadcastsInDim S1x65536 (![1] : Fin 1 → Fin S1x65536.rank)
  bcast_S2048x1_S2048x65536_0_1 : S2048x1.BroadcastsInDim S2048x65536 (![0, 1] : Fin 2 → Fin S2048x65536.rank)
  bcast_S1x65536_S2048x65536_0_1 : S1x65536.BroadcastsInDim S2048x65536 (![0, 1] : Fin 2 → Fin S2048x65536.rank)
  transposes_S65536x16_S16x65536_1_0 : S65536x16.Transposes [1, 0] S16x65536
  bcast_S_S2048x65536 : S_.BroadcastsInDim S2048x65536 (![] : Fin 0 → Fin S2048x65536.rank)
  reducesTo_S2048x65536_S2048_d1 : S2048x65536.ReducesTo [1] S2048
  bcast_S_S2048 : S_.BroadcastsInDim S2048 (![] : Fin 0 → Fin S2048.rank)
  dot_S2048x16_S16x65536_S2048x65536_1_0_0_1_n_n_wf : DotDims.WF S2048x16 S16x65536 S2048x65536 [1] [0] [0] [1] [] []

variable [Facts₀]

def dot_S2048x16_S16x65536_S2048x65536_1_0_0_1_n_n : DotDims S2048x16 S16x65536 S2048x65536 where
  lhsContracting := [1]
  rhsContracting := [0]
  lhsNonContracting := [0]
  rhsNonContracting := [1]
  lhsBatch := []
  rhsBatch := []
  wf := dot_S2048x16_S16x65536_S2048x65536_1_0_0_1_n_n_wf

class Facts : Prop extends Facts₀ where

variable [Facts]
-- ==== Proof.Pieces.lean ====
/-
  What one visit of the kernel body leaves behind, as values. The body keeps, per query row of its block, a running
  minimum in a scratch column. On the first candidate tile of a row block it resets the column to the starting word and
  then folds the tile in, so the column ends at the update of the reset column; on every later tile it folds the tile
  into what the previous visit left; and on the last tile it also writes the output column, which is the bump of the
  column it has just updated (it reads the column back after storing it). Each statement below says exactly that of the
  contents the symbolic run found, for any float values.
-/
import proofs.«112213_j57397942944389_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access, as the constant function. -/
theorem hz : (![0, 0] : Fin 2 → Nat) = fun _ => 0 := funext fun a => by fin_cases a <;> rfl

/-- FIRST TILE of a row block: the scratch column ends at the running-minimum update of the freshly reset column. -/
theorem scratch_first (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i) (x0 : Vec F S1024x16 .f32) (x1 : Vec F S2048x16 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x16) hz,
    View.ld_unit_zero (S := S2048x16) hz]

/-- A MIDDLE TILE: the scratch column ends at the update of what the previous visit left in it. -/
theorem scratch_middle (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i) (x0 : Vec F S1024x16 .f32) (x1 : Vec F S2048x16 .f32)
    (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S1024x16) hz,
    View.ld_unit_zero (S := S2048x16) hz, View.ld_unit_zero (S := S1024x1) hz]

/-- THE LAST TILE, the scratch column: the same update. -/
theorem scratch_last (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x16 .f32) (x1 : Vec F S2048x16 .f32)
    (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x16) hz,
    View.ld_unit_zero (S := S2048x16) hz, View.ld_unit_zero (S := S1024x1) hz]

/-- THE LAST TILE, the output column: the bump of the column just updated. -/
theorem out_last (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i) (x0 : Vec F S1024x16 .f32) (x1 : Vec F S2048x16 .f32)
    (xs0 : Vec F S1024x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x1) _ hz]
  simp only [View.readAt_eq_ld, harg2.read_unread, harg3.read_unread, harg5.read_unread, View.ld_unit_zero (S := S1024x16) hz,
    View.ld_unit_zero (S := S2048x16) hz, View.ld_unit_zero (S := S1024x1) hz]

end Cert.KernelIdeal.Pieces

end
-- ==== Proof.NearestBump.lean ====
/-
  The function both programs compute, written once over the extended reals.

  For a query row `a` and a candidate row `b` of `K` coordinates the squared distance is taken in its expanded form
  `(∑ aₖ² + ∑ bₖ²) − 2 · ∑ aₖ bₖ`. A query's value is the minimum of that quantity over all candidates, started from
  the word of `+∞`, and the result is a bump of it: with `d = sqrt (max (max v 0) 1e-12)` (the small word kept as the
  literal it is) the result is `exp (1 / (d² − 4) + 1/4)` where `|d| < 2` and `0` elsewhere, the quotient's denominator
  replaced by `−1` off that region.

  One program takes the minimum over all candidates at once; the other visits them in consecutive tiles of equal width
  and keeps a running minimum, reset to the starting word before the first tile. The two agree because a bound lies
  below a minimum exactly when it lies below every candidate, so grouping does not matter (`le_min_step`, the one
  step of the running minimum): the law is order-theoretic, needs no finiteness, and never evaluates the starting word.
-/
import Idealize.ShloMosaic.Lib.ValueIdx
import Idealize.ShloMosaic.PureOps.Ideal.Laws

noncomputable section

open scoped BigOperators

namespace Cert.NearestBump

open Idealize.ShloMosaic Idealize.ShloMosaic.ValueIdx

/-- The word every minimum starts from (the pattern of `+∞`), never evaluated. -/
abbrev start : EReal := Ideal.ofBits .f32 0x7F800000#32

/-- The squared distance of two rows, expanded: the two squared norms, less twice the inner product. -/
def sqDist {K : ℕ} (a b : Fin K → EReal) : EReal :=
  (∑ k, a k * a k + ∑ k, b k * b k) - Ideal.ofBits .f32 0x40000000#32 * ∑ k, a k * b k

/-- The bump of a squared nearest distance `v`. -/
def bump (v : EReal) : EReal :=
  let dist : EReal := Ideal.sqrt (max (max v (Ideal.ofBits .f32 0x00000000#32)) (Ideal.ofBits .f32 0x2B8CBCCC#32))
  let near : BitVec 1 := Ideal.cmp .olt (max dist (-dist)) (Ideal.ofBits .f32 0x40000000#32)
  let denom : EReal := Scalar.select near (dist * dist - Ideal.ofBits .f32 0x40800000#32) (Ideal.ofBits .f32 0xBF800000#32)
  Scalar.select near (Ideal.exp (Ideal.div (Ideal.ofBits .f32 0x3F800000#32) denom + Ideal.ofBits .f32 0x3E800000#32))
    (Ideal.ofBits .f32 0x00000000#32)

/-- The squared distance from query row `r` of `x` to candidate row `j` of `d`. -/
def cand (x : (⟨2, ![2048, 16]⟩ : Shape).Idx → EReal) (d : (⟨2, ![65536, 16]⟩ : Shape).Idx → EReal)
    (r : Fin 2048) (j : Fin 65536) : EReal :=
  sqDist (fun k => x (ix2 r k)) (fun k => d (ix2 j k))

/-- Query row `r`'s squared distance to its nearest candidate: the minimum over all 65536 rows of `d`. -/
def nearest (x : (⟨2, ![2048, 16]⟩ : Shape).Idx → EReal) (d : (⟨2, ![65536, 16]⟩ : Shape).Idx → EReal) (r : Fin 2048) : EReal :=
  (Finset.univ : Finset (Fin 65536)).fold min start (cand x d r)

/-- The result array: per query, the bump of its nearest squared distance. -/
def result (x : (⟨2, ![2048, 16]⟩ : Shape).Idx → EReal) (d : (⟨2, ![65536, 16]⟩ : Shape).Idx → EReal) :
    (⟨1, ![2048]⟩ : Shape).Idx → EReal :=
  fun i => bump (nearest x d (i 0))

/-- ONE STEP OF A RUNNING MINIMUM over tiles of width `w`. If `prev` is characterised as the minimum (from `b`) of the
    candidates before tile `e`, and `tile` as the minimum (from `b`) of tile `e`'s own `w` candidates, then
    `min prev tile` is the minimum of the candidates before tile `e + 1`. -/
theorem le_min_step {N w : ℕ} (b : EReal) (f : Fin N → EReal) (e : ℕ) (prev tile : EReal)
    (hprev : ∀ z, z ≤ prev ↔ z ≤ b ∧ ∀ j : Fin N, j.val < w * e → z ≤ f j)
    (htile : ∀ z, z ≤ tile ↔ z ≤ b ∧ ∀ (j' : Fin w) (h : w * e + j'.val < N), z ≤ f ⟨w * e + j'.val, h⟩) :
    ∀ z, z ≤ min prev tile ↔ z ≤ b ∧ ∀ j : Fin N, j.val < w * (e + 1) → z ≤ f j := by
  intro z
  rw [le_min_iff, hprev z, htile z]
  constructor
  · rintro ⟨⟨hb, h1⟩, -, h2⟩
    refine ⟨hb, fun j hj => ?_⟩
    by_cases hlt : j.val < w * e
    · exact h1 j hlt
    · have hw : j.val - w * e < w := by rw [Nat.mul_succ] at hj; omega
      have hN : w * e + (⟨j.val - w * e, hw⟩ : Fin w).val < N := by have := j.isLt; show w * e + (j.val - w * e) < N; omega
      have := h2 ⟨j.val - w * e, hw⟩ hN
      have hj' : (⟨w * e + (⟨j.val - w * e, hw⟩ : Fin w).val, hN⟩ : Fin N) = j := Fin.ext (by show w * e + (j.val - w * e) = j.val; omega)
      rwa [hj'] at this
  · rintro ⟨hb, h⟩
    refine ⟨⟨hb, fun j hj => h j (by rw [Nat.mul_succ]; omega)⟩, hb, fun j' hN => h _ ?_⟩
    show w * e + j'.val < w * (e + 1)
    have := j'.isLt; rw [Nat.mul_succ]; omega

/-- Before the first tile there are no candidates: the starting value is characterised as their minimum. -/
theorem le_start_iff {N w : ℕ} (b : EReal) (f : Fin N → EReal) :
    ∀ z, z ≤ b ↔ z ≤ b ∧ ∀ j : Fin N, j.val < w * 0 → z ≤ f j :=
  fun z => ⟨fun h => ⟨h, fun j hj => absurd hj (by omega)⟩, fun h => h.1⟩

/-- After the last tile every candidate has been seen: a value characterised as the minimum of all candidates before
    tile `n`, where `w * n` is their number, is their minimum. -/
theorem eq_fold_of_le_iff {N w n : ℕ} (hN : w * n = N) (b : EReal) (f : Fin N → EReal) (v : EReal)
    (hv : ∀ z, z ≤ v ↔ z ≤ b ∧ ∀ j : Fin N, j.val < w * n → z ≤ f j) :
    v = (Finset.univ : Finset (Fin N)).fold min b f := by
  refine eq_of_forall_le_iff fun z => ?_
  rw [hv z, Finset.le_fold_min]
  exact and_congr_right fun _ => ⟨fun hh j _ => hh j (by rw [hN]; exact j.isLt), fun hh j _ => hh j (Finset.mem_univ j)⟩

end Cert.NearestBump

end
-- ==== Proof.LibColumn.lean ====
/-
  Column vectors: an `[a]` array seen as the `[a, 1]` column (a reduction that keeps its axis), the column seen as the
  `[a]` array again, and the column spread over the `b` columns of an `[a, b]` array — each read at an index. The column's
  one entry in row `p` is the array's entry `p`; spreading repeats it along the row.
-/
import Idealize.ShloMosaic.Lib.ValueIdx
import Idealize.ShloMosaic.Lib.ValueLayout
import Idealize.ShloMosaic.Lib.Pipeline.Value

noncomputable section

namespace Cert.LibColumn

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column `[a, 1]` cast to `[a]` reads, at `i`, the column's entry in row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibMinFold.lean ====
/-
  A minimum taken along ONE axis, at the ideal values, as the fold of `min` over that axis's coordinates from the
  accumulator's value — for a vector `multi_reduction <minimumf>` and for the host's one-operand `reduce` with a
  `minimum` body alike —, and the order-theoretic reading of such a fold: a bound lies below the fold exactly when it lies
  below the starting value and below every entry. With the second, two minima over differently grouped candidates are
  compared without ever evaluating the starting value.
-/
import Idealize.ShloMosaic.PureOps.Ideal.Laws

noncomputable section

namespace Cert.LibMinFold

open Idealize.ShloMosaic

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The host's one-operand `reduce` with a `minimum` body over one axis, read at the ideal values: the same fold, from
    the initial value's one element. -/
theorem hostReduce_minimumf_single {φ : FTy} {s t u : Shape} {a : Fin s.rank} (x : s.Idx → Ideal φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

/-- A bound is below a fold of `min` over a whole finite index type exactly when it is below the starting value and
    below every entry. -/
theorem le_fold_min_univ {ι : Type} [Fintype ι] (b : EReal) (f : ι → EReal) (z : EReal) :
    z ≤ (Finset.univ : Finset ι).fold min b f ↔ z ≤ b ∧ ∀ j, z ≤ f j := by
  rw [Finset.le_fold_min]
  exact and_congr_right fun _ => ⟨fun hh j => hh j (Finset.mem_univ j), fun hh j _ => hh j⟩

end Cert.LibMinFold

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotRows.lean ====
/-
  A matrix product of an `M × K` operand against an `N × K` operand, BOTH contracted on their last axis — each row of
  the left operand against each row of the right one, the product `A · Bᵀ` —, with no batch axis and the zero
  accumulator, read at an entry at the ideal values: entry (a, b) is the sum over the contracted coordinate `c` of
  `A (a, c) * B (b, c)`. Stated for any dimension-numbers record whose axis lists are the stated ones (a printed
  record satisfies each hypothesis by `rfl`). It is the fourth arrangement beside the three of `Cert.LibDot`, whose
  two lemmas on the non-contracting axes it uses.
-/
import proofs.«112213_j57397942944389_1_alg».proof.Proof.LibDot

noncomputable section

open scoped BigOperators

namespace Cert.LibDotRows

open Idealize.ShloMosaic Idealize.ShloMosaic.ValueIdx Cert.LibDot

/-- Rows against rows: an `M × K` by an `N × K` operand, each contracted on its last axis. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := rhsIdx_val_non d hlb hrb hln hrn (ix2 a b) ((contrEquiv1 d K hr hs).symm c) Nat.one_lt_two
  have r1 := (d.rhsIdx_val_of_single hrc (ix2 a b) ((contrEquiv1 d K hr hs).symm c)).trans c2
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDotRows

end
-- ==== Proof.Payload.lean ====
/-
  The kernel body's three stored values, read at an entry at the ideal values.

  The reset column is the starting word in every row. The epilogue column is, row by row, the bump of the column it is
  given: every operation in it acts entry by entry. The update column is, in row `p`, the minimum of the given column's
  entry and the tile's own minimum — the minimum, from the starting word, over the tile's 2048 candidate rows `j` of
  the expanded squared distance between row `p` of the query block and row `j` of the candidate block: the two
  squared norms are lane sums spread along rows and columns, and the inner products are the entries of the product of
  the query block with the transposed candidate block.
-/
import proofs.«112213_j57397942944389_1_alg».proof.Proof.Gen.KernelIdeal.Skeleton
import proofs.«112213_j57397942944389_1_alg».proof.Proof.NearestBump
import proofs.«112213_j57397942944389_1_alg».proof.Proof.LibColumn
import proofs.«112213_j57397942944389_1_alg».proof.Proof.LibMinFold
import proofs.«112213_j57397942944389_1_alg».proof.Proof.LibDotRows
import Idealize.ShloMosaic.Lib.ValueLayout

noncomputable section

open scoped BigOperators

open Idealize.ShloMosaic Idealize.ShloMosaic.TcCoe Idealize.ShloMosaic.ValueIdx

namespace Cert.KernelIdeal.Payload

open Cert.KernelIdeal Cert.KernelIdeal.Gen Cert.NearestBump

/-- Inserting coordinate `k` on the reduced axis of a one-coordinate index `(p)` gives `(p, k)`. -/
theorem lift_q (p : Fin 1024) (k : Fin 16) : reduces_S1024x16_S1024.lift (ix1 p) k = ix2 p k :=
  funext fun a => Fin.ext (by match a with | ⟨0, _⟩ => rfl | ⟨1, _⟩ => rfl)
theorem lift_c (j : Fin 2048) (k : Fin 16) : reduces_S2048x16_S2048.lift (ix1 j) k = ix2 j k :=
  funext fun a => Fin.ext (by match a with | ⟨0, _⟩ => rfl | ⟨1, _⟩ => rfl)
theorem lift_t (p : Fin 1024) (j : Fin 2048) : reduces_S1024x2048_S1024.lift (ix1 p) j = ix2 p j :=
  funext fun a => Fin.ext (by match a with | ⟨0, _⟩ => rfl | ⟨1, _⟩ => rfl)

/-- A query row's squared norm: the lane sum of the squared block, in row `p`. -/
theorem queryNorm (x0 : FVec Ideal S1024x16 .f32) (p : Fin 1024) :
    multiReduction (F := Ideal) .add [1] S1024 (mulf x0 x0) 0x00000000#32 reduces_S1024x16_S1024 (.inl rfl) rfl (ix1 p)
      = ∑ k : Fin 16, x0 (ix2 p k) * x0 (ix2 p k) := by
  refine (Ideal.multiReduction_add_single (mulf x0 x0) 0x00000000#32 reduces_S1024x16_S1024 (.inl rfl) rfl (ix1 p)).trans ?_
  exact Finset.sum_congr rfl fun k _ => congrArg (mulf x0 x0) (lift_q p k)

/-- A candidate row's squared norm. -/
theorem candNorm (x1 : FVec Ideal S2048x16 .f32) (j : Fin 2048) :
    multiReduction (F := Ideal) .add [1] S2048 (mulf x1 x1) 0x00000000#32 reduces_S2048x16_S2048 (.inl rfl) rfl (ix1 j)
      = ∑ k : Fin 16, x1 (ix2 j k) * x1 (ix2 j k) := by
  refine (Ideal.multiReduction_add_single (mulf x1 x1) 0x00000000#32 reduces_S2048x16_S2048 (.inl rfl) rfl (ix1 j)).trans ?_
  exact Finset.sum_congr rfl fun k _ => congrArg (mulf x1 x1) (lift_c j k)

/-- The inner product of query row `p` and candidate row `j`: the product of the query block with the transposed
    candidate block, at `(p, j)`. -/
theorem inner (x0 : FVec Ideal S1024x16 .f32) (x1 : FVec Ideal S2048x16 .f32) (p : Fin 1024) (j : Fin 2048) :
    matmul (F := Ideal) dot_S1024x16_S2048x16_S1024x2048_1_1_0_0_n_n (some .fp32) x0 x1
        (constant S1024x2048 .f32 0x00000000#32) (ix2 p j)
      = ∑ k : Fin 16, x0 (ix2 p k) * x1 (ix2 j k) :=
  Cert.LibDotRows.matmul_11_zero_apply dot_S1024x16_S2048x16_S1024x2048_1_1_0_0_n_n rfl rfl rfl rfl rfl rfl (some .fp32) x0 x1 p j

/-- The reset column holds the starting word in every row. -/
theorem reset_apply (i : S1024x1.Idx) : k0_pay1 (F := Ideal) i = start := by
  unfold k0_pay1
  exact congrFun (shapeCast_self _ _) i

/-- The epilogue column is the bump of the given column, row by row. -/
theorem epilogue_apply (v : Vec Ideal S1024x1 .f32) (i : S1024x1.Idx) : k0_pay3 (F := Ideal) v i = bump (v i) := rfl

/-- The update column in row `p`: the minimum of the given column's entry and the tile's minimum over its 2048
    candidate rows of the squared distance to query row `p`. -/
theorem update_apply (x0 : Vec Ideal S1024x16 .f32) (x1 : Vec Ideal S2048x16 .f32) (s : Vec Ideal S1024x1 .f32)
    (p : Fin 1024) (u : Fin 1) :
    k0_pay2 (F := Ideal) x0 x1 s (ix2 p u)
      = min (s (ix2 p u)) ((Finset.univ : Finset (Fin 2048)).fold min start
          fun j => sqDist (fun k => x0 (ix2 p k)) (fun k => x1 (ix2 j k))) := by
  unfold k0_pay2
  dsimp only
  refine (congrFun (shapeCast_self _ _) (ix2 p u)).trans ?_
  refine congrArg (min (s (ix2 p u))) ?_
  refine (Cert.LibColumn.shapeCast_a_a1_apply _ _ p u).trans ?_
  refine (Cert.LibMinFold.multiReduction_minimumf_single _ _ _ _ _ (ix1 p)).trans ?_
  refine Finset.fold_congr fun (j : Fin 2048) _ => ?_
  have atRow : ∀ W : FVec Ideal S1024x2048 .f32, (W ∘ reduces_S1024x2048_S1024.lift (ix1 p)) j = W (ix2 p j) :=
    fun W => congrArg W (lift_t p j)
  refine (atRow _).trans ?_
  show _ = (∑ k : Fin 16, x0 (ix2 p k) * x0 (ix2 p k) + ∑ k : Fin 16, x1 (ix2 j k) * x1 (ix2 j k))
      - Ideal.ofBits .f32 0x40000000#32 * ∑ k : Fin 16, x0 (ix2 p k) * x1 (ix2 j k)
  refine (subf_apply _ _ _).trans (congrArg₂ (· - ·) ((addf_apply _ _ _).trans (congrArg₂ (· + ·) ?_ ?_))
    ((mulf_apply _ _ _).trans (congrArg₂ (· * ·) rfl ?_)))
  · exact (Cert.LibColumn.broadcastTo_a1_ab_apply _ _ p j).trans
      ((Cert.LibColumn.shapeCast_a_a1_apply _ _ p 0).trans (queryNorm x0 p))
  · exact (broadcastTo_1b_ab_apply _ _ p j).trans
      ((shapeCast_a_1a_apply _ _ 0 j).trans (candNorm x1 j))
  · exact inner x0 x1 p j

end Cert.KernelIdeal.Payload

end
-- ==== Proof.RunningMin.lean ====
/-
  The running minimum across the grid, at the ideal values.

  The grid is 2 query blocks of 1024 rows by 32 candidate tiles of 2048 rows, visited tile by tile within a block:
  point `t` works on query block `t / 32` and candidate tile `t % 32`. The block a window hands the body at a point is
  the matching rectangle of its array: row `p` of the query block is row `1024 · (t / 32) + p` of the queries, row
  `j'` of the candidate block is row `2048 · (t % 32) + j'` of the candidates.

  After point `t` the scratch column holds, in row `p`, the minimum (from the starting word) of the squared distances
  from that query to the candidates of tiles `0 … t % 32` — by induction on the point, one `le_min_step` per visit:
  the first tile of a block folds into the freshly reset column, a later one into what the visit before left. So after a
  block's last tile the column holds each query's nearest squared distance, and the output column written there is its
  bump.
-/
import proofs.«112213_j57397942944389_1_alg».proof.Proof.Gen.KernelIdeal.Frame
import proofs.«112213_j57397942944389_1_alg».proof.Proof.Pieces
import proofs.«112213_j57397942944389_1_alg».proof.Proof.Payload
import Idealize.ShloMosaic.Lib.Pipeline.Value

noncomputable section

open scoped BigOperators

open Idealize.ShloMosaic Idealize.ShloMosaic.TcCoe Idealize.SL.Sem Idealize.ShloMosaic.ValueIdx

namespace Cert.KernelIdeal.RunningMin

open Cert.KernelIdeal Cert.KernelIdeal.Gen Cert.NearestBump

variable (m : (ℓ : Loc nD τ sig) → Buf (Elt Ideal) ℓ)

/-- The query array and the candidate array as the region finds them, -/
abbrev qarr (c : Dev nD) : Vec Ideal S2048x16 .f32 := V m c main_arg0
abbrev carr (c : Dev nD) : Vec Ideal S65536x16 .f32 := V m c main_arg1
/-- and the block of each the body is handed at point `t`. -/
abbrev qblk (c : Dev nD) (t : Fin cfg0.N) : Vec Ideal S1024x16 .f32 := iblk m c 0 t
abbrev cblk (c : Dev nD) (t : Fin cfg0.N) : Vec Ideal S2048x16 .f32 := iblk m c 1 t

/-- The query window sits on block row `t / 32`, the candidate window on block row `t % 32`; both on block column 0. -/
theorem idx_query : ∀ t : Fin cfg0.N, win0_0.index t (0 : Fin 2) = t.val / 32 ∧ win0_0.index t (1 : Fin 2) = 0 :=
  (by decide +kernel : ∀ t : Fin grid0.N, win0_0.index t (0 : Fin 2) = t.val / 32 ∧ win0_0.index t (1 : Fin 2) = 0)
theorem idx_cand : ∀ t : Fin cfg0.N, win0_1.index t (0 : Fin 2) = t.val % 32 ∧ win0_1.index t (1 : Fin 2) = 0 :=
  (by decide +kernel : ∀ t : Fin grid0.N, win0_1.index t (0 : Fin 2) = t.val % 32 ∧ win0_1.index t (1 : Fin 2) = 0)

/-- Row `p` of the query block at point `t` is row `1024 · (t / 32) + p` of the queries. -/
theorem qblk_apply (c : Dev nD) (t : Fin cfg0.N) (p : Fin 1024) (k : Fin 16) (r : Fin 2048)
    (hr : r.val = 1024 * (t.val / 32) + p.val) : qblk m c t (ix2 p k) = qarr m c (ix2 r k) := by
  show iblk m c 0 t (ix2 p k) = V m c main_arg0 (ix2 r k)
  unfold iblk
  rw [View.read_apply]
  show V m c main_arg0 _ = V m c main_arg0 _
  refine congrArg (V m c main_arg0) (funext fun a => Fin.ext ?_)
  match a with
  | ⟨0, _⟩ =>
    show win0_0.index t 0 * 1024 + 1 * p.val = r.val
    rw [(idx_query t).1, hr]; omega
  | ⟨1, _⟩ =>
    show win0_0.index t 1 * 16 + 1 * k.val = k.val
    rw [(idx_query t).2]; omega

/-- Row `j'` of the candidate block at point `t` is row `2048 · (t % 32) + j'` of the candidates. -/
theorem cblk_apply (c : Dev nD) (t : Fin cfg0.N) (j' : Fin 2048) (k : Fin 16) (j : Fin 65536)
    (hj : j.val = 2048 * (t.val % 32) + j'.val) : cblk m c t (ix2 j' k) = carr m c (ix2 j k) := by
  show iblk m c 1 t (ix2 j' k) = V m c main_arg1 (ix2 j k)
  unfold iblk
  rw [View.read_apply]
  show V m c main_arg1 _ = V m c main_arg1 _
  refine congrArg (V m c main_arg1) (funext fun a => Fin.ext ?_)
  match a with
  | ⟨0, _⟩ =>
    show win0_1.index t 0 * 2048 + 1 * j'.val = j.val
    rw [(idx_cand t).1, hj]; omega
  | ⟨1, _⟩ =>
    show win0_1.index t 1 * 16 + 1 * k.val = k.val
    rw [(idx_cand t).2]; omega

/-- The tile's own minimum at point `t`, in row `p`, is characterised as the minimum over the tile's candidates
    `2048 · (t % 32) + j'` of the squared distances from query `r = 1024 · (t / 32) + p`. -/
theorem tile_le (c : Dev nD) (t : Fin cfg0.N) (p : Fin 1024) (r : Fin 2048) (hr : r.val = 1024 * (t.val / 32) + p.val) (z : EReal) :
    z ≤ (Finset.univ : Finset (Fin 2048)).fold min start
          (fun j' => sqDist (fun k => qblk m c t (ix2 p k)) (fun k => cblk m c t (ix2 j' k)))
      ↔ z ≤ start ∧ ∀ (j' : Fin 2048) (h : 2048 * (t.val % 32) + j'.val < 65536),
          z ≤ cand (qarr m c) (carr m c) r ⟨2048 * (t.val % 32) + j'.val, h⟩ := by
  rw [Cert.LibMinFold.le_fold_min_univ]
  have key : ∀ (j' : Fin 2048) (h : 2048 * (t.val % 32) + j'.val < 65536),
      sqDist (fun k => qblk m c t (ix2 p k)) (fun k => cblk m c t (ix2 j' k))
        = cand (qarr m c) (carr m c) r ⟨2048 * (t.val % 32) + j'.val, h⟩ := by
    intro j' h
    unfold cand
    exact congrArg₂ sqDist (funext fun k => qblk_apply m c t p k r hr)
      (funext fun k => cblk_apply m c t j' k ⟨2048 * (t.val % 32) + j'.val, h⟩ rfl)
  refine and_congr_right fun _ => ⟨fun hh j' h => by rw [← key j' h]; exact hh j', fun hh j' => ?_⟩
  have h : 2048 * (t.val % 32) + j'.val < 65536 := by have := j'.isLt; omega
  rw [key j' h]; exact hh j' h

/-- The scratch column after point `n`. -/
abbrev colAt (c : Dev nD) (n : ℕ) (h : n < cfg0.N) : Vec Ideal S1024x1 .f32 := (outsAt0 m c n h).2

/-- After the FIRST tile of a block: the update of the reset column by the tile. -/
theorem col_first (c : Dev nD) (t : Fin cfg0.N) (h0 : t.val % 32 = 0) (h1 : ¬t.val % 32 = 31) :
    colAt m c t.val t.isLt = k0_pay2 (qblk m c t) (cblk m c t) (k0_pay1 (F := Ideal)) := by
  show (outsAt0 m c t.val t.isLt).2 = _
  rw [outsAt0_A m c t h0 h1]; dsimp only
  exact Cert.KernelIdeal.Pieces.scratch_first (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (qblk m c t) (cblk m c t)

/-- After a MIDDLE tile: the update of what the point before left. -/
theorem col_middle (c : Dev nD) (t : Fin cfg0.N) (h0 : ¬t.val % 32 = 0) (h1 : ¬t.val % 32 = 31) :
    colAt m c t.val t.isLt
      = k0_pay2 (qblk m c t) (cblk m c t) (colAt m c (t.val - 1) (Nat.lt_of_le_of_lt (Nat.sub_le _ _) t.isLt)) := by
  show (outsAt0 m c t.val t.isLt).2 = _
  rw [outsAt0_B m c t h0 h1]; dsimp only
  exact Cert.KernelIdeal.Pieces.scratch_middle (F := Ideal) c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (qblk m c t) (cblk m c t)
    (colAt m c (t.val - 1) (Nat.lt_of_le_of_lt (Nat.sub_le _ _) t.isLt))

/-- After the LAST tile: the same update, -/
theorem col_last (c : Dev nD) (t : Fin cfg0.N) (h0 : ¬t.val % 32 = 0) (h1 : t.val % 32 = 31) :
    colAt m c t.val t.isLt
      = k0_pay2 (qblk m c t) (cblk m c t) (colAt m c (t.val - 1) (Nat.lt_of_le_of_lt (Nat.sub_le _ _) t.isLt)) := by
  show (outsAt0 m c t.val t.isLt).2 = _
  rw [outsAt0_C m c t h0 h1]; dsimp only
  exact Cert.KernelIdeal.Pieces.scratch_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (qblk m c t) (cblk m c t)
    (colAt m c (t.val - 1) (Nat.lt_of_le_of_lt (Nat.sub_le _ _) t.isLt))

/-- and the output column written there is the bump of the column just updated. -/
theorem out_last (c : Dev nD) (t : Fin cfg0.N) (h0 : ¬t.val % 32 = 0) (h1 : t.val % 32 = 31) :
    (outsAt0 m c t.val t.isLt).1 = k0_pay3 (colAt m c t.val t.isLt) := by
  rw [col_last m c t h0 h1, outsAt0_C m c t h0 h1]; dsimp only
  exact Cert.KernelIdeal.Pieces.out_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (qblk m c t) (cblk m c t)
    (colAt m c (t.val - 1) (Nat.lt_of_le_of_lt (Nat.sub_le _ _) t.isLt))

/-- What it means for a value to be the minimum of query `r`'s squared distances to the candidates of the first
    `e` tiles. -/
def IsMinBefore (c : Dev nD) (r : Fin 2048) (e : ℕ) (v : EReal) : Prop :=
  ∀ z : EReal, z ≤ v ↔ z ≤ start ∧ ∀ j : Fin 65536, j.val < 2048 * e → z ≤ cand (qarr m c) (carr m c) r j

/-- The first tile of a block: the column holds the minimum over tile 0. -/
theorem first_step (c : Dev nD) (t : Fin cfg0.N) (h0 : t.val % 32 = 0) (p : Fin 1024) (u : Fin 1) (r : Fin 2048)
    (hr : r.val = 1024 * (t.val / 32) + p.val) :
    IsMinBefore m c r (t.val % 32 + 1) (colAt m c t.val t.isLt (ix2 p u)) := by
  have h1 : ¬t.val % 32 = 31 := by omega
  have e1 := (congrFun (col_first m c t h0 h1) (ix2 p u)).trans
    ((Cert.KernelIdeal.Payload.update_apply (qblk m c t) (cblk m c t) (k0_pay1 (F := Ideal)) p u).trans
      (congrArg (fun a => min a _) (Cert.KernelIdeal.Payload.reset_apply (ix2 p u))))
  have hprev : ∀ z, z ≤ start ↔ z ≤ start ∧ ∀ j : Fin 65536, j.val < 2048 * (t.val % 32) → z ≤ cand (qarr m c) (carr m c) r j := by
    rw [h0]; exact le_start_iff start _
  intro z
  rw [e1]
  exact le_min_step start (cand (qarr m c) (carr m c) r) (t.val % 32) start _ hprev (tile_le m c t p r hr) z

/-- A later tile: if the point before left the minimum over the earlier tiles, this point leaves the minimum over
    one tile more. -/
theorem next_step (c : Dev nD) (t : Fin cfg0.N) (h0 : ¬t.val % 32 = 0) (p : Fin 1024) (u : Fin 1) (r : Fin 2048)
    (hr : r.val = 1024 * (t.val / 32) + p.val)
    (hprev : IsMinBefore m c r (t.val % 32) (colAt m c (t.val - 1) (Nat.lt_of_le_of_lt (Nat.sub_le _ _) t.isLt) (ix2 p u))) :
    IsMinBefore m c r (t.val % 32 + 1) (colAt m c t.val t.isLt (ix2 p u)) := by
  have hcol : colAt m c t.val t.isLt
      = k0_pay2 (qblk m c t) (cblk m c t) (colAt m c (t.val - 1) (Nat.lt_of_le_of_lt (Nat.sub_le _ _) t.isLt)) := by
    by_cases h1 : t.val % 32 = 31
    · exact col_last m c t h0 h1
    · exact col_middle m c t h0 h1
  have e1 := (congrFun hcol (ix2 p u)).trans
    (Cert.KernelIdeal.Payload.update_apply (qblk m c t) (cblk m c t) (colAt m c (t.val - 1) (Nat.lt_of_le_of_lt (Nat.sub_le _ _) t.isLt)) p u)
  intro z
  rw [e1]
  exact le_min_step start (cand (qarr m c) (carr m c) r) (t.val % 32) _ _ hprev (tile_le m c t p r hr) z

/-- THE INVARIANT: after point `n` the scratch column holds, in row `p`, the minimum of query
    `1024 · (n / 32) + p`'s squared distances to the candidates of tiles `0 … n % 32`. -/
theorem col_inv (c : Dev nD) : ∀ (n : ℕ) (h : n < cfg0.N) (p : Fin 1024) (u : Fin 1) (r : Fin 2048),
    r.val = 1024 * (n / 32) + p.val → IsMinBefore m c r (n % 32 + 1) (colAt m c n h (ix2 p u)) := by
  intro n
  induction n with
  | zero => intro h p u r hr; exact first_step m c ⟨0, h⟩ rfl p u r hr
  | succ n ih =>
    intro h p u r hr
    by_cases h0 : (n + 1) % 32 = 0
    · exact first_step m c ⟨n + 1, h⟩ h0 p u r hr
    · have hp := ih (Nat.lt_of_succ_lt h) p u r (by omega)
      have he : n % 32 + 1 = (n + 1) % 32 := by omega
      rw [he] at hp
      exact next_step m c ⟨n + 1, h⟩ h0 p u r hr hp

/-- So after a block's LAST tile the output column holds, in row `p`, the bump of query `1024 · (t / 32) + p`'s
    nearest squared distance. -/
theorem out_apply (c : Dev nD) (t : Fin cfg0.N) (h1 : t.val % 32 = 31) (p : Fin 1024) (u : Fin 1) (r : Fin 2048)
    (hr : r.val = 1024 * (t.val / 32) + p.val) :
    (outsAt0 m c t.val t.isLt).1 (ix2 p u) = bump (nearest (qarr m c) (carr m c) r) := by
  have h0 : ¬t.val % 32 = 0 := by omega
  have hv := col_inv m c t.val t.isLt p u r hr
  unfold IsMinBefore at hv
  rw [h1] at hv
  have hnear : colAt m c t.val t.isLt (ix2 p u) = nearest (qarr m c) (carr m c) r :=
    eq_fold_of_le_iff (w := 2048) (n := 31 + 1) rfl start (cand (qarr m c) (carr m c) r) _ hv
  exact (congrFun (out_last m c t h0 h1) (ix2 p u)).trans
    ((Cert.KernelIdeal.Payload.epilogue_apply (colAt m c t.val t.isLt) (ix2 p u)).trans (congrArg bump hnear))

end Cert.KernelIdeal.RunningMin

end
-- ==== Proof.KernelValue.lean ====
/-
  What the kernel's program leaves in its result, at the ideal values.

  The output window's block at point `t` is rows `1024 · (t / 32) … + 1023` of the one-column result array, and the
  pipeline writes it back only after a query block's last candidate tile (`t % 32 = 31`). What is written back there is,
  row by row, the bump of the query's nearest squared distance (the running minimum has by then seen every candidate),
  which is the matching block of ONE column function of the argument arrays; the two write-backs' blocks tile the
  array (row `r` lies in the block written at point `32 · (r / 1024) + 31`), so the array ends holding that column.
  The reshape after the region reads the column as a plain vector: entry `r` is the column's entry in row `r`.
-/
import proofs.«112213_j57397942944389_1_alg».proof.Proof.Gen.KernelIdeal.Frame
import proofs.«112213_j57397942944389_1_alg».proof.Proof.RunningMin
import proofs.«112213_j57397942944389_1_alg».proof.Proof.LibColumn
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.NearestBump Cert.KernelIdeal.RunningMin

variable (m : (ℓ : Loc nD τ sig) → Buf (Elt Ideal) ℓ) (ρ : Dev nD → PrngReg)

-- a query's nearest squared distance is used as a whole here: never opened into its 65536 candidates
attribute [local irreducible] Cert.NearestBump.nearest

/-- The column the region leaves in its result array: in row `r`, the bump of query `r`'s nearest squared distance. -/
def column (c : Dev nD) : Buf (Elt Ideal) ((c : Thread nD τ).loc main_v0) :=
  fun i => bump (nearest (qarr m c) (carr m c) (i 0))

/-- The output window sits on block row `t / 32`, block column 0. -/
theorem idx_out : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- After a block's last tile the output's staging buffer holds, entry by entry, the column's matching block. -/
theorem flushed_at (c : Dev nD) (t : Fin cfg0.N) (h1 : t.val % 32 = 31) (y : S1024x1.Idx) :
    (outsAt0 m c t.val t.isLt).1 y = column m c (((cfg0.win 2).blk t).view.emb y) := by
  obtain ⟨p, u, rfl⟩ : ∃ (p : Fin 1024) (u : Fin 1), y = ix2 p u := ⟨y 0, y 1, eq_ix2 y⟩
  have hN : cfg0.N = 64 := N_0
  have hr : 1024 * (t.val / 32) + p.val < 2048 := by have := t.isLt; have := p.isLt; omega
  refine (out_apply m c t h1 p u ⟨1024 * (t.val / 32) + p.val, hr⟩ rfl).trans ?_
  unfold column
  refine congrArg (fun r => bump (nearest (qarr m c) (carr m c) r)) (Fin.ext ?_)
  show 1024 * (t.val / 32) + p.val = win0_2.index t 0 * 1024 + 1 * p.val
  rw [(idx_out t).1]; omega

/-- The column's entry in row `r`, over the argument arrays themselves (the region finds them as they were). -/
theorem column_at (c : Dev nD) (r : Fin 2048) :
    column m c (ix2 r (0 : Fin 1))
      = bump (nearest (m ((c : Thread nD τ).loc main_arg0)) (m ((c : Thread nD τ).loc main_arg1)) r) := rfl

attribute [irreducible] column

/-- WHAT A WRITE-BACK WRITES is the column's block at that point. -/
theorem flushed_eq (c : Dev nD) (t : Fin cfg0.N) (hf : (cfg0.win 2).flush t = true) :
    (dats m 0 c).flushed 2 t = ((cfg0.win 2).blk t).view.read (Elt Ideal) (column m c) := by
  have h1 : t.val % 32 = 31 := (flush0_2 t).mp hf
  show (cfg0.win 2).cut (grid0.coords t) ((dats m 0 c).after 2 t) = _
  rw [after0_2]
  funext y
  show (outsAt0 m c t.val t.isLt).1 y = column m c (((cfg0.win 2).blk t).view.emb y)
  exact flushed_at m c t h1 y

/-- An index of the result array is in point `t`'s block iff each coordinate is in the block's range on its axis. -/
theorem mem_blk (t : Fin cfg0.N) (i : S2048x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0).slice (win0_2.rect t)).set ↔ _
  rw [View.set_slice_whole, Rect.mem_set_unit]
  exact Iff.rfl

/-- THE RESULT ARRAY after the region: the column (row `r` is covered by the write-back after tile 31 of its block). -/
theorem final (c : Dev nD) : (dats m 0 c).arrAt 2 cfg0.N = column m c :=
  (dats m 0 c).arrAt_eq_of_cover 2 (column m c) (flushed_eq m c) fun i => by
    have hN : cfg0.N = 64 := N_0
    have hi0 : (i 0).val < 2048 := (i 0).isLt
    have hi1 : (i 1).val < 1 := (i 1).isLt
    have ht : 32 * ((i 0).val / 1024) + 31 < cfg0.N := by rw [hN]; omega
    obtain ⟨e0, e1⟩ := idx_out ⟨32 * ((i 0).val / 1024) + 31, ht⟩
    refine ⟨⟨32 * ((i 0).val / 1024) + 31, ht⟩, (flush0_2 _).mpr (by show (32 * ((i 0).val / 1024) + 31) % 32 = 31; omega), ?_⟩
    rw [mem_blk]
    intro a
    match a with
    | ⟨0, _⟩ =>
      show win0_2.index ⟨32 * ((i 0).val / 1024) + 31, ht⟩ (0 : Fin 2) * 1024 ≤ (i 0).val
        ∧ (i 0).val < win0_2.index ⟨32 * ((i 0).val / 1024) + 31, ht⟩ (0 : Fin 2) * 1024 + 1024
      rw [e0]
      show (32 * ((i 0).val / 1024) + 31) / 32 * 1024 ≤ (i 0).val ∧ (i 0).val < (32 * ((i 0).val / 1024) + 31) / 32 * 1024 + 1024
      omega
    | ⟨1, _⟩ =>
      show win0_2.index ⟨32 * ((i 0).val / 1024) + 31, ht⟩ (1 : Fin 2) * 1 ≤ (i 1).val
        ∧ (i 1).val < win0_2.index ⟨32 * ((i 0).val / 1024) + 31, ht⟩ (1 : Fin 2) * 1 + 1
      rw [e1]; omega

/-- The program's result as a function of the argument arrays. -/
def answer (c : Dev nD) : Buf (Elt Ideal) ((c : Thread nD τ).loc main_v1) :=
  result (m ((c : Thread nD τ).loc main_arg0)) (m ((c : Thread nD τ).loc main_arg1))

/-- The answer's entry `r`. -/
theorem answer_at (c : Dev nD) (r : Fin 2048) :
    answer m c (ix1 r)
      = bump (nearest (m ((c : Thread nD τ).loc main_arg0)) (m ((c : Thread nD τ).loc main_arg1)) r) := rfl

/-- THE RESHAPE after the region reads the column as a vector. -/
theorem tail_eq (c : Dev nD) :
    Pipeline.afterTail₀ cfgs (dats m) 0 (V0 m) [hostOps1] c main_v1 = answer m c := by
  unfold Pipeline.afterTail₀
  show StableHlo.after hostOps1 _ (Proc.devRef .tc main_v1) = _
  after_results
  funext i
  obtain ⟨r, rfl⟩ : ∃ r : Fin 2048, i = ix1 r := ⟨i 0, eq_ix1 i⟩
  show shapeCast S2048 (Pipeline.withArrays spec0 c (V0 m c) (fun w => (dats m 0 c).arrAt w cfg0.N) (Proc.devRef .tc main_v0))
    shapeCasts_S2048x1_S2048 (ix1 r) = _
  rw [show Pipeline.withArrays spec0 c (V0 m c) (fun w => (dats m 0 c).arrAt w cfg0.N) (Proc.devRef .tc main_v0) = column m c from
    (Pipeline.withArrays_arr spec0 launch0.win.arr_inj c (V0 m c) (fun w => (dats m 0 c).arrAt w cfg0.N) 2).trans (final m c)]
  refine (Cert.LibColumn.shapeCast_a1_a_apply (column m c) shapeCasts_S2048x1_S2048 r).trans ?_
  exact (column_at m c r).trans (answer_at m c r).symm

/-- The result buffer is none of the pipeline's arrays: the frame run states it through the lines after the region. -/
theorem result_rest : main_v1 ∈ Pipeline.restRefs sig spec0 :=
  Pipeline.mem_restRefs_of main_v1 rfl (fun w => by fin_cases w <;> decide)

/-- THE KERNEL'S RUN, READ: every weakly fair execution terminates with the result at the specification of the argument
    arrays, and the arguments unchanged. -/
theorem run : θ_run defs (onTc (τ := τ) (main (F := Ideal))) ⟨m, fun _ => 0, ρ⟩ fun r => ∀ c : Dev nD,
      r.2.mem ((c : Thread nD τ).loc main_v1) = answer m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference's result is the specification.

  The reference materialises the whole matrix of squared distances: at `(r, j)` it holds the expanded squared distance
  between query row `r` and candidate row `j` (the norms are host sums from zero, spread along rows and columns; the
  inner products are the entries of the product with the transposed candidate array). It then takes each row's minimum
  from the starting word — the one operation read here by hand, as the fold of `min` along the row — and applies the
  bump to it entry by entry, its two `where`s being selects against a spread constant.
-/
import proofs.«112213_j57397942944389_1_alg».proof.Proof.Gen.ReferenceIdeal.Read
import proofs.«112213_j57397942944389_1_alg».proof.Proof.NearestBump
import proofs.«112213_j57397942944389_1_alg».proof.Proof.LibMinFold

noncomputable section

open scoped BigOperators

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.NearestBump

variable (x0 : (⟨S2048x16, .f32⟩ : BufTy).Contents (Elt Ideal)) (x1 : (⟨S65536x16, .f32⟩ : BufTy).Contents (Elt Ideal))

/-- Through the two spreads and the host sum, entry `(r, j)` reads query row `r`; -/
theorem ix_query (r : Fin 2048) (j : Fin 65536) (k : Fin 16) :
    idx_main_v1 (idx_main_v2 (idx_main_v6 (ix2 r j))) k = ix2 r k :=
  funext fun a => Fin.ext (by match a with | ⟨0, _⟩ => rfl | ⟨1, _⟩ => rfl)
/-- and candidate row `j`; -/
theorem ix_cand (r : Fin 2048) (j : Fin 65536) (k : Fin 16) :
    idx_main_v4 (idx_main_v5 (idx_main_v7 (ix2 r j))) k = ix2 j k :=
  funext fun a => Fin.ext (by match a with | ⟨0, _⟩ => rfl | ⟨1, _⟩ => rfl)
/-- the product's left factor is query row `r`, -/
theorem ix_left (r : Fin 2048) (j : Fin 65536) (k : Fin 16) : lidx_main_v10 (ix2 r j) k = ix2 r k :=
  funext fun a => Fin.ext (by match a with | ⟨0, _⟩ => rfl | ⟨1, _⟩ => rfl)
/-- and its right factor, through the transposition, candidate row `j`. -/
theorem ix_right (r : Fin 2048) (j : Fin 65536) (k : Fin 16) : idx_main_v9 (ridx_main_v10 (ix2 r j) k) = ix2 j k :=
  funext fun a => Fin.ext (by match a with | ⟨0, _⟩ => rfl | ⟨1, _⟩ => rfl)

/-- The distance matrix at `(r, j)` is the squared distance from query row `r` to candidate row `j`. -/
theorem dist_apply (r : Fin 2048) (j : Fin 65536) : val_main_v13 (F := Ideal) x0 x1 (ix2 r j) = cand x0 x1 r j := by
  unfold cand sqDist
  rw [val_main_v13_apply, val_main_v8_apply, val_main_v6_apply, val_main_v2_apply, val_main_v1_apply, val_main_v7_apply,
    val_main_v5_apply, val_main_v4_apply, val_main_v12_apply, val_main_v11_apply, val_main_v10_apply]
  simp only [val_main_v0_apply, val_main_v3_apply, val_main_v9_apply, val_main_cst_apply, val_main_cst_0_apply,
    val_main_cst_1_apply, ix_query, ix_cand, ix_left, ix_right, Ideal.addf_def, Ideal.subf_def, Ideal.mulf_def,
    Ideal.ofBits_def, Ideal.ofBits_zero_f32, zero_add]

/-- The row reduction's shape fact, as the one the inserted index is defined from. -/
theorem rowRed : S2048x65536.Reduces [1] S2048 := by decide

/-- Inserting candidate `j` on the reduced axis of query index `(r)` gives `(r, j)`. -/
theorem lift_row (r : Fin 2048) (j : Fin 65536) : rowRed.lift (ix1 r) j = ix2 r j :=
  funext fun a => Fin.ext (by match a with | ⟨0, _⟩ => rfl | ⟨1, _⟩ => rfl)

/-- The row minimum at query `r` is that query's nearest squared distance. -/
theorem nearest_apply (r : Fin 2048) : val_main_v14 (F := Ideal) x0 x1 (ix1 r) = nearest x0 x1 r := by
  unfold val_main_v14
  refine (Cert.LibMinFold.hostReduce_minimumf_single (val_main_v13 (F := Ideal) x0 x1) (val_main_cst_2 (F := Ideal))
    reducesTo_S2048x65536_S2048_d1 rowRed h_S_ (ix1 r)).trans ?_
  unfold nearest
  refine Finset.fold_congr fun (j : Fin 65536) _ => ?_
  have atRow : ∀ W : S2048x65536.Idx → EReal, (W ∘ rowRed.lift (ix1 r)) j = W (ix2 r j) :=
    fun W => congrArg W (lift_row r j)
  exact (atRow _).trans (dist_apply x0 x1 r j)

/-- After the row minimum every operation acts entry by entry: the result at a query is the bump of its row minimum
    (the two `where`s select against a spread constant; the spread constants read their one word). -/
theorem epilogue_apply (i : S2048.Idx) : val_main_v32 (F := Ideal) x0 x1 i = bump (val_main_v14 (F := Ideal) x0 x1 i) := by
  rw [val_main_v32_apply, val_main_v31_apply, val_main_v30_apply, val_main_v28_apply, val_main_v26_apply, val_main_v25_apply,
    val_main_v23_apply, val_main_v22_apply, val_main_v20_apply, val_main_v19_apply, val_main_v18_apply, val_main_v16_apply,
    val_main_v15_apply, val_main_v17_apply, val_main_v21_apply, val_main_v24_apply, val_main_v27_apply, val_main_v29_apply,
    val_main_call0_v1_apply, val_main_call0_v0_apply, val_main_call1_v1_apply, val_main_call1_v0_apply,
    val_main_cst_3_apply, val_main_cst_4_apply, val_main_cst_5_apply, val_main_cst_6_apply, val_main_cst_7_apply,
    val_main_cst_8_apply, val_main_cst_9_apply, val_main_cst_10_apply]
  generalize val_main_v14 (F := Ideal) x0 x1 i = v
  rfl

/-- The reference's result array is the specification. -/
theorem result_eq : val_main_v32 (F := Ideal) x0 x1 = result x0 x1 := by
  funext i
  obtain ⟨r, rfl⟩ : ∃ r : Fin 2048, i = ix1 r := ⟨i 0, eq_ix1 i⟩
  rw [epilogue_apply, nearest_apply]
  rfl

end Cert.ReferenceIdeal.RefValue

end
-- ==== Proof.lean ====
/-
  Nearest-neighbour bump: a kernel that tiles the candidates against a plain reference.

  For 2048 query rows and 65536 candidate rows of 16 coordinates, both programs compute per query the minimum over all
  candidates of the expanded squared distance `(‖q‖² + ‖c‖²) − 2 · ⟨q, c⟩` and then a bump of it: with
  `d = sqrt (max (max v 0) 1e-12)` the value `exp (1 / (d² − 4) + 1/4)` where `|d| < 2`, and `0` elsewhere. The
  reference forms the whole 2048 × 65536 matrix of squared distances and takes each row's minimum at once. The kernel
  walks, for each block of 1024 queries, over 32 tiles of 2048 candidates: per tile it forms the block of squared
  distances (the inner products as the product of the query block with the transposed candidate block), takes each
  row's minimum over the tile, and folds it into a running minimum kept in a scratch column that is reset to `+∞`
  before a block's first tile; after the last tile it writes the bump of the column, and the one-column result is then
  read as a vector.

  Over the extended reals the two are equal because a bound lies below a minimum exactly when it lies below every
  candidate, however the candidates are grouped: the running minimum after a block's last tile is the row's minimum.
  Every other operation is the same on both sides, word for word (the starting word of the minima, the constants of
  the bump), so nothing is ever evaluated and the inputs' finiteness is not used. The ideal pass rewrote nothing, so
  the idealised kernel is the kernel's own text read over the extended reals.
-/
import proofs.«112213_j57397942944389_1_alg».proof.Defs
import proofs.«112213_j57397942944389_1_alg».proof.Proof.Gen.Kernel
import proofs.«112213_j57397942944389_1_alg».proof.Proof.Gen.Kernel.Skeleton
import proofs.«112213_j57397942944389_1_alg».proof.Proof.Gen.Kernel.Launch
import proofs.«112213_j57397942944389_1_alg».proof.Proof.Gen.Kernel.Points
import proofs.«112213_j57397942944389_1_alg».proof.Proof.Gen.Kernel.Frame
import proofs.«112213_j57397942944389_1_alg».proof.Proof.Gen.KernelIdeal
import proofs.«112213_j57397942944389_1_alg».proof.Proof.Gen.KernelIdeal.Skeleton
import proofs.«112213_j57397942944389_1_alg».proof.Proof.Gen.KernelIdeal.Launch
import proofs.«112213_j57397942944389_1_alg».proof.Proof.Gen.KernelIdeal.Points
import proofs.«112213_j57397942944389_1_alg».proof.Proof.Gen.KernelIdeal.Frame
import proofs.«112213_j57397942944389_1_alg».proof.Proof.Gen.ReferenceIdeal
import proofs.«112213_j57397942944389_1_alg».proof.Proof.Gen.ReferenceIdeal.Run
import proofs.«112213_j57397942944389_1_alg».proof.Proof.Gen.ReferenceIdeal.Read
import proofs.«112213_j57397942944389_1_alg».proof.Proof.Gen.Pre_finite_inputs
import proofs.«112213_j57397942944389_1_alg».proof.Proof.KernelValue
import proofs.«112213_j57397942944389_1_alg».proof.Proof.RefValue
import Idealize.ShloMosaic.Adequacy
import Idealize.ShloMosaic.Init

noncomputable section

namespace Cert.Proof

open Idealize.ShloMosaic Idealize.ShloMosaic.TcCoe Idealize.SL.Sem

/-- The three programs run to the end, fault-free, with their arguments unchanged: the kernel as printed and its
    idealisation by the frame of the pipelined region, the reference by its straight-line run. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealised kernel. -/
theorem preserves : Cert.preserves_Kernel_KernelIdeal := trivial

/-- From memories that agree on the two arrays, the idealised kernel and the idealised reference both end with the
    specification of those arrays in their result: the kernel's tiled running minimum and the reference's one
    row minimum are the same extended real, and the bump after them is the same function. -/
theorem algebraic : Cert.algebraic_KernelIdeal_ReferenceIdeal := by
  intro m ρ m' ρ' _ hagree
  refine ⟨fun c => Cert.KernelIdeal.KernelValue.answer m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
